-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x24x12 : Shape := ⟨4, ![64, 4096, 24, 12]⟩
abbrev S32x384x192 : Shape := ⟨3, ![32, 384, 192]⟩
abbrev S_ : Shape := ⟨0, ![]⟩

class Facts : Prop where
  bcast_S_S64x4096x24x12 : S_.BroadcastsInDim S64x4096x24x12 (![] : Fin 0 → Fin S64x4096x24x12.rank)
  reducesTo_S64x4096x24x12_S_d0_1_2_3 : S64x4096x24x12.ReducesTo [0, 1, 2, 3] S_
  h_S_ : 0 < S_.numel

variable [Facts]

def fn {F : FTy → Type} [FloatOps F] (main_arg0 : FVec F S64x4096x24x12 .f32) (main_arg1 : IVec S32x384x192 32) : IVec S_ 1 :=
  let main_v0 : FVec F S64x4096x24x12 .f32 := Host.absf main_arg0
  let main_cst : FVec F S_ .f32 := constant S_ .f32 0x7F800000#32
  let main_v1 : FVec F S64x4096x24x12 .f32 := broadcastInDim S64x4096x24x12 ![] bcast_S_S64x4096x24x12 main_cst
  let main_v2 : IVec S64x4096x24x12 1 := cmpf .olt main_v0 main_v1
  let main_c : IVec S_ 1 := constantI S_ 1 1#1
  let main_v3 : IVec S_ 1 := (fun x v => Host.reduce IntOp.andi x v reducesTo_S64x4096x24x12_S_d0_1_2_3 h_S_) main_v2 main_c
  main_v3
-- ==== Kernel.lean ====
abbrev S64x4096x24x12 : Shape := ⟨4, ![64, 4096, 24, 12]⟩
abbrev S32x384x192 : Shape := ⟨3, ![32, 384, 192]⟩
abbrev S64x384x192 : Shape := ⟨3, ![64, 384, 192]⟩
abbrev S_ : Shape := ⟨0, ![]⟩
abbrev S64x24x16x12x16 : Shape := ⟨5, ![64, 24, 16, 12, 16]⟩
abbrev S64x24x12 : Shape := ⟨3, ![64, 24, 12]⟩
abbrev S64x1x288 : Shape := ⟨3, ![64, 1, 288]⟩
abbrev S64x4096x288 : Shape := ⟨3, ![64, 4096, 288]⟩
abbrev S64x2048x288 : Shape := ⟨3, ![64, 2048, 288]⟩
abbrev S64x1 : Shape := ⟨2, ![64, 1]⟩
abbrev S64x1x1 : Shape := ⟨3, ![64, 1, 1]⟩
abbrev S64x2048 : Shape := ⟨2, ![64, 2048]⟩
abbrev S32x128x288 : Shape := ⟨3, ![32, 128, 288]⟩
abbrev S32x1x288 : Shape := ⟨3, ![32, 1, 288]⟩
abbrev S32x128 : Shape := ⟨2, ![32, 128]⟩
abbrev S64x4096 : Shape := ⟨2, ![64, 4096]⟩

abbrev nBuf : Space → Nat
  | .hbm => 58
  | .vmem => 16
  | .smem => 0
  | _ => 0

abbrev bufTy : (tb : Table) → Fin (tcTables nBuf tb) → BufTy
  | .hbm, ⟨0, _⟩ => ⟨S64x4096x24x12, .f32⟩
  | .hbm, ⟨1, _⟩ => ⟨S32x384x192, .i32⟩
  | .hbm, ⟨2, _⟩ => ⟨S64x384x192, .i32⟩
  | .hbm, ⟨3, _⟩ => ⟨S_, .i32⟩
  | .hbm, ⟨4, _⟩ => ⟨S64x384x192, .i32⟩
  | .hbm, ⟨5, _⟩ => ⟨S64x384x192, .i1⟩
  | .hbm, ⟨6, _⟩ => ⟨S_, .i32⟩
  | .hbm, ⟨7, _⟩ => ⟨S64x384x192, .i32⟩
  | .hbm, ⟨8, _⟩ => ⟨S64x384x192, .i1⟩
  | .hbm, ⟨9, _⟩ => ⟨S64x384x192, .i1⟩
  | .hbm, ⟨10, _⟩ => ⟨S64x384x192, .f32⟩
  | .hbm, ⟨11, _⟩ => ⟨S64x24x16x12x16, .f32⟩
  | .hbm, ⟨12, _⟩ => ⟨S_, .f32⟩
  | .hbm, ⟨13, _⟩ => ⟨S64x24x12, .f32⟩
  | .hbm, ⟨14, _⟩ => ⟨S_, .f32⟩
  | .hbm, ⟨15, _⟩ => ⟨S64x24x12, .f32⟩
  | .hbm, ⟨16, _⟩ => ⟨S64x24x12, .f32⟩
  | .hbm, ⟨17, _⟩ => ⟨S_, .f32⟩
  | .hbm, ⟨18, _⟩ => ⟨S64x24x12, .f32⟩
  | .hbm, ⟨19, _⟩ => ⟨S64x24x12, .i1⟩
  | .hbm, ⟨20, _⟩ => ⟨S64x1x288, .i1⟩
  | .hbm, ⟨21, _⟩ => ⟨S64x4096x288, .f32⟩
  | .hbm, ⟨22, _⟩ => ⟨S64x2048x288, .f32⟩
  | .hbm, ⟨23, _⟩ => ⟨S64x2048x288, .f32⟩
  | .hbm, ⟨24, _⟩ => ⟨S64x1x288, .i32⟩
  | .hbm, ⟨25, _⟩ => ⟨S_, .i32⟩
  | .hbm, ⟨26, _⟩ => ⟨S64x1, .i32⟩
  | .hbm, ⟨27, _⟩ => ⟨S64x1x1, .i32⟩
  | .hbm, ⟨28, _⟩ => ⟨S64x1x288, .i1⟩
  | .hbm, ⟨29, _⟩ => ⟨S_, .i32⟩
  | .hbm, ⟨30, _⟩ => ⟨S64x1x1, .i32⟩
  | .hbm, ⟨31, _⟩ => ⟨S64x1x1, .i1⟩
  | .hbm, ⟨32, _⟩ => ⟨S_, .i1⟩
  | .hbm, ⟨33, _⟩ => ⟨S64x1x288, .i1⟩
  | .hbm, ⟨34, _⟩ => ⟨S64x1x288, .i1⟩
  | .hbm, ⟨35, _⟩ => ⟨S64x1x288, .i1⟩
  | .hbm, ⟨36, _⟩ => ⟨S64x1x288, .f32⟩
  | .hbm, ⟨37, _⟩ => ⟨S64x1x288, .f32⟩
  | .hbm, ⟨38, _⟩ => ⟨S_, .f32⟩
  | .hbm, ⟨39, _⟩ => ⟨S64x1, .f32⟩
  | .hbm, ⟨40, _⟩ => ⟨S_, .f32⟩
  | .hbm, ⟨41, _⟩ => ⟨S64x1, .f32⟩
  | .hbm, ⟨42, _⟩ => ⟨S64x1, .f32⟩
  | .hbm, ⟨43, _⟩ => ⟨S_, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x2048, .f32⟩
  | .hbm, ⟨49, _⟩ => ⟨S64x2048, .f32⟩
  | .hbm, ⟨50, _⟩ => ⟨S64x2048, .f32⟩
  | .hbm, ⟨51, _⟩ => ⟨S64x2048, .f32⟩
  | .hbm, ⟨52, _⟩ => ⟨S64x2048, .f32⟩
  | .hbm, ⟨53, _⟩ => ⟨S64x2048, .f32⟩
  | .hbm, ⟨54, _⟩ => ⟨S64x2048, .f32⟩
  | .hbm, ⟨55, _⟩ => ⟨S64x2048, .f32⟩
  | .hbm, ⟨56, _⟩ => ⟨S64x4096, .f32⟩
  | .hbm, ⟨57, _⟩ => ⟨S64x4096, .f32⟩
  | .local _ .vmem, ⟨0, _⟩ => ⟨S32x128x288, .f32⟩
  | .local _ .vmem, ⟨1, _⟩ => ⟨S32x128x288, .f32⟩
  | .local _ .vmem, ⟨2, _⟩ => ⟨S32x1x288, .f32⟩
  | .local _ .vmem, ⟨3, _⟩ => ⟨S32x1x288, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128x288, .f32⟩
  | .local _ .vmem, ⟨9, _⟩ => ⟨S32x128x288, .f32⟩
  | .local _ .vmem, ⟨10, _⟩ => ⟨S32x1x288, .f32⟩
  | .local _ .vmem, ⟨11, _⟩ => ⟨S32x1x288, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | _, _ => ⟨S64x4096x24x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev main_v34_0 : Ref sig .tc := ⟨.hbm, 50, rfl⟩
abbrev main_v34_1 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x128x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S32x128x288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x1x288 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S32x384x192_S32x384x192_S64x384x192_d0 : Shape.Concatenates [S32x384x192, S32x384x192] S64x384x192 0
  bcast_S_S64x384x192 : S_.BroadcastsInDim S64x384x192 (![] : Fin 0 → Fin S64x384x192.rank)
  shapeCasts_S64x384x192_S64x24x16x12x16 : S64x384x192.ShapeCasts S64x24x16x12x16
  reducesTo_S64x24x16x12x16_S64x24x12_d2_4 : S64x24x16x12x16.ReducesTo [2, 4] S64x24x12
  h_S_ : 0 < S_.numel
  bcast_S_S64x24x12 : S_.BroadcastsInDim S64x24x12 (![] : Fin 0 → Fin S64x24x12.rank)
  shapeCasts_S64x24x12_S64x1x288 : S64x24x12.ShapeCasts S64x1x288
  shapeCasts_S64x4096x24x12_S64x4096x288 : S64x4096x24x12.ShapeCasts S64x4096x288
  slices_S64x4096x288_S64x2048x288_0_0_0 : S64x4096x288.Slices ![0, 0, 0] S64x2048x288
  slices_S64x4096x288_S64x2048x288_0_2048_0 : S64x4096x288.Slices ![0, 2048, 0] S64x2048x288
  natLt_1_32 : 1 < 32
  reducesTo_S64x1x288_S64x1_d2 : S64x1x288.ReducesTo [2] S64x1
  bcast_S64x1_S64x1x1_0_1 : S64x1.BroadcastsInDim S64x1x1 (![0, 1] : Fin 2 → Fin S64x1x1.rank)
  bcast_S_S64x1x1 : S_.BroadcastsInDim S64x1x1 (![] : Fin 0 → Fin S64x1x1.rank)
  bcast_S_S64x1x288 : S_.BroadcastsInDim S64x1x288 (![] : Fin 0 → Fin S64x1x288.rank)
  bcast_S64x1x1_S64x1x288_0_1_2 : S64x1x1.BroadcastsInDim S64x1x288 (![0, 1, 2] : Fin 3 → Fin S64x1x288.rank)
  bcast_S_S64x1 : S_.BroadcastsInDim S64x1 (![] : Fin 0 → Fin S64x1.rank)
  inb_S32x128x288_S32x128x288_0_0_0 : ∀ a, (![0, 0, 0] : Fin 3 → Nat) a + S32x128x288.size a ≤ S32x128x288.size a
  h_S32x128x288 : 0 < S32x128x288.numel
  shapeCasts_S32x128x288_S32x128x288 : S32x128x288.ShapeCasts S32x128x288
  inb_S32x1x288_S32x1x288_0_0_0 : ∀ a, (![0, 0, 0] : Fin 3 → Nat) a + S32x1x288.size a ≤ S32x1x288.size a
  h_S32x1x288 : 0 < S32x1x288.numel
  shapeCasts_S32x1x288_S32x1x288 : S32x1x288.ShapeCasts S32x1x288
  broadcasts_S32x1x288_S32x128x288 : S32x1x288.Broadcasts S32x128x288
  reduces_S32x128x288_S32x128 : S32x128x288.Reduces [2] S32x128
  inb_S32x128_S32x128_0_0 : ∀ a, (![0, 0] : Fin 2 → Nat) a + S32x128.size a ≤ S32x128.size a
  h_S32x128 : 0 < S32x128.numel
  bcast_S64x1_S64x2048_0_1 : S64x1.BroadcastsInDim S64x2048 (![0, 1] : Fin 2 → Fin S64x2048.rank)
  concatenates_S64x2048_S64x2048_S64x4096_d1 : Shape.Concatenates [S64x2048, S64x2048] S64x4096 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x288.size a ≤ S64x2048x288.size a
  hwx0_0 : ∀ i : grid0.Coords, EltTy.bits .f32 = 32 ∨ (Rect.block (s := S64x2048x288) S32x128x288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x288.size a ≤ S64x1x288.size a
  hwx0_1 : ∀ i : grid0.Coords, EltTy.bits .f32 = 32 ∨ (Rect.block (s := S64x1x288) S32x1x288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S64x2048.size a
  hwx0_2 : ∀ i : grid0.Coords, EltTy.bits .f32 = 32 ∨ (Rect.block (s := S64x2048) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S64x2048.size a
  hwx0_3 : ∀ i : grid0.Coords, EltTy.bits .f32 = 32 ∨ (Rect.block (s := S64x2048) S32x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128x288.size a ≤ S64x2048x288.size a
  hwx1_0 : ∀ i : grid1.Coords, EltTy.bits .f32 = 32 ∨ (Rect.block (s := S64x2048x288) S32x128x288.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1x288.size a ≤ S64x1x288.size a
  hwx1_1 : ∀ i : grid1.Coords, EltTy.bits .f32 = 32 ∨ (Rect.block (s := S64x1x288) S32x1x288.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S64x2048.size a
  hwx1_2 : ∀ i : grid1.Coords, EltTy.bits .f32 = 32 ∨ (Rect.block (s := S64x2048) S32x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S64x2048.size a
  hwx1_3 : ∀ i : grid1.Coords, EltTy.bits .f32 = 32 ∨ (Rect.block (s := S64x2048) S32x128.size (cc1_transform_3 i) (hinb1_3 i)).WholeWords (EltTy.packing .f32)

variable [Facts₀]

abbrev win0_0 : Pipeline.Window sig grid0 :=
  Pipeline.Window.ofSpec (Memref.whole main_v15) S32x128x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S32x1x288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33_0) S32x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33_1) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S32x128x288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S32x1x288.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34_0) S32x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34_1) S32x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x4096x24x12 : Shape := ⟨4, ![64, 4096, 24, 12]⟩
abbrev S32x384x192 : Shape := ⟨3, ![32, 384, 192]⟩
abbrev S64x384x192 : Shape := ⟨3, ![64, 384, 192]⟩
abbrev S_ : Shape := ⟨0, ![]⟩
abbrev S64x24x16x12x16 : Shape := ⟨5, ![64, 24, 16, 12, 16]⟩
abbrev S64x24x12 : Shape := ⟨3, ![64, 24, 12]⟩
abbrev S64x1x288 : Shape := ⟨3, ![64, 1, 288]⟩
abbrev S64x4096x288 : Shape := ⟨3, ![64, 4096, 288]⟩
abbrev S64x2048x288 : Shape := ⟨3, ![64, 2048, 288]⟩
abbrev S64x1 : Shape := ⟨2, ![64, 1]⟩
abbrev S64x1x1 : Shape := ⟨3, ![64, 1, 1]⟩
abbrev S64x2048 : Shape := ⟨2, ![64, 2048]⟩
abbrev S64x4096 : Shape := ⟨2, ![64, 4096]⟩

abbrev nBuf : Space → Nat
  | .hbm => 76
  | .vmem => 0
  | .smem => 0
  | _ => 0

abbrev bufTy : (tb : Table) → Fin (tcTables nBuf tb) → BufTy
  | .hbm, ⟨0, _⟩ => ⟨S64x4096x24x12, .f32⟩
  | .hbm, ⟨1, _⟩ => ⟨S32x384x192, .i32⟩
  | .hbm, ⟨2, _⟩ => ⟨S64x384x192, .i32⟩
  | .hbm, ⟨3, _⟩ => ⟨S_, .i32⟩
  | .hbm, ⟨4, _⟩ => ⟨S64x384x192, .i32⟩
  | .hbm, ⟨5, _⟩ => ⟨S64x384x192, .i1⟩
  | .hbm, ⟨6, _⟩ => ⟨S_, .i32⟩
  | .hbm, ⟨7, _⟩ => ⟨S64x384x192, .i32⟩
  | .hbm, ⟨8, _⟩ => ⟨S64x384x192, .i1⟩
  | .hbm, ⟨9, _⟩ => ⟨S64x384x192, .i1⟩
  | .hbm, ⟨10, _⟩ => ⟨S64x384x192, .f32⟩
  | .hbm, ⟨11, _⟩ => ⟨S64x24x16x12x16, .f32⟩
  | .hbm, ⟨12, _⟩ => ⟨S_, .f32⟩
  | .hbm, ⟨13, _⟩ => ⟨S64x24x12, .f32⟩
  | .hbm, ⟨14, _⟩ => ⟨S_, .f32⟩
  | .hbm, ⟨15, _⟩ => ⟨S64x24x12, .f32⟩
  | .hbm, ⟨16, _⟩ => ⟨S64x24x12, .f32⟩
  | .hbm, ⟨17, _⟩ => ⟨S_, .f32⟩
  | .hbm, ⟨18, _⟩ => ⟨S64x24x12, .f32⟩
  | .hbm, ⟨19, _⟩ => ⟨S64x24x12, .i1⟩
  | .hbm, ⟨20, _⟩ => ⟨S64x1x288, .i1⟩
  | .hbm, ⟨21, _⟩ => ⟨S64x4096x288, .f32⟩
  | .hbm, ⟨22, _⟩ => ⟨S64x2048x288, .f32⟩
  | .hbm, ⟨23, _⟩ => ⟨S64x2048x288, .f32⟩
  | .hbm, ⟨24, _⟩ => ⟨S64x1x288, .i32⟩
  | .hbm, ⟨25, _⟩ => ⟨S_, .i32⟩
  | .hbm, ⟨26, _⟩ => ⟨S64x1, .i32⟩
  | .hbm, ⟨27, _⟩ => ⟨S64x1x1, .i32⟩
  | .hbm, ⟨28, _⟩ => ⟨S64x1x288, .i1⟩
  | .hbm, ⟨29, _⟩ => ⟨S_, .i32⟩
  | .hbm, ⟨30, _⟩ => ⟨S64x1x1, .i32⟩
  | .hbm, ⟨31, _⟩ => ⟨S64x1x1, .i1⟩
  | .hbm, ⟨32, _⟩ => ⟨S_, .i1⟩
  | .hbm, ⟨33, _⟩ => ⟨S64x1x288, .i1⟩
  | .hbm, ⟨34, _⟩ => ⟨S64x1x288, .i1⟩
  | .hbm, ⟨35, _⟩ => ⟨S64x1x288, .i1⟩
  | .hbm, ⟨36, _⟩ => ⟨S64x1x288, .f32⟩
  | .hbm, ⟨37, _⟩ => ⟨S_, .f32⟩
  | .hbm, ⟨38, _⟩ => ⟨S64x1, .f32⟩
  | .hbm, ⟨39, _⟩ => ⟨S_, .f32⟩
  | .hbm, ⟨40, _⟩ => ⟨S64x1, .f32⟩
  | .hbm, ⟨41, _⟩ => ⟨S64x1, .f32⟩
  | .hbm, ⟨42, _⟩ => ⟨S64x2048x288, .f32⟩
  | .hbm, ⟨43, _⟩ => ⟨S64x2048x288, .f32⟩
  | .hbm, ⟨44, _⟩ => ⟨S_, .f32⟩
  | .hbm, ⟨45, _⟩ => ⟨S64x2048, .f32⟩
  | .hbm, ⟨46, _⟩ => ⟨S64x2048, .f32⟩
  | .hbm, ⟨47, _⟩ => ⟨S64x2048, .f32⟩
  | .hbm, ⟨48, _⟩ => ⟨S_, .f32⟩
  | .hbm, ⟨49, _⟩ => ⟨S_, .f32⟩
  | .hbm, ⟨50, _⟩ => ⟨S64x2048x288, .i1⟩
  | .hbm, ⟨51, _⟩ => ⟨S64x2048x288, .f32⟩
  | .hbm, ⟨52, _⟩ => ⟨S64x2048x288, .f32⟩
  | .hbm, ⟨53, _⟩ => ⟨S_, .f32⟩
  | .hbm, ⟨54, _⟩ => ⟨S64x2048, .f32⟩
  | .hbm, ⟨55, _⟩ => ⟨S64x4096, .f32⟩
  | .hbm, ⟨56, _⟩ => ⟨S64x1x288, .f32⟩
  | .hbm, ⟨57, _⟩ => ⟨S_, .f32⟩
  | .hbm, ⟨58, _⟩ => ⟨S64x1, .f32⟩
  | .hbm, ⟨59, _⟩ => ⟨S_, .f32⟩
  | .hbm, ⟨60, _⟩ => ⟨S64x1, .f32⟩
  | .hbm, ⟨61, _⟩ => ⟨S64x1, .f32⟩
  | .hbm, ⟨62, _⟩ => ⟨S64x2048x288, .f32⟩
  | .hbm, ⟨63, _⟩ => ⟨S64x2048x288, .f32⟩
  | .hbm, ⟨64, _⟩ => ⟨S_, .f32⟩
  | .hbm, ⟨65, _⟩ => ⟨S64x2048, .f32⟩
  | .hbm, ⟨66, _⟩ => ⟨S64x2048, .f32⟩
  | .hbm, ⟨67, _⟩ => ⟨S64x2048, .f32⟩
  | .hbm, ⟨68, _⟩ => ⟨S_, .f32⟩
  | .hbm, ⟨69, _⟩ => ⟨S_, .f32⟩
  | .hbm, ⟨70, _⟩ => ⟨S64x2048x288, .i1⟩
  | .hbm, ⟨71, _⟩ => ⟨S64x2048x288, .f32⟩
  | .hbm, ⟨72, _⟩ => ⟨S64x2048x288, .f32⟩
  | .hbm, ⟨73, _⟩ => ⟨S_, .f32⟩
  | .hbm, ⟨74, _⟩ => ⟨S64x2048, .f32⟩
  | .hbm, ⟨75, _⟩ => ⟨S64x4096, .f32⟩
  | _, _ => ⟨S64x4096x24x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_14 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]

class Facts₀ : Prop where
  concatenates_S32x384x192_S32x384x192_S64x384x192_d0 : Shape.Concatenates [S32x384x192, S32x384x192] S64x384x192 0
  bcast_S_S64x384x192 : S_.BroadcastsInDim S64x384x192 (![] : Fin 0 → Fin S64x384x192.rank)
  shapeCasts_S64x384x192_S64x24x16x12x16 : S64x384x192.ShapeCasts S64x24x16x12x16
  reducesTo_S64x24x16x12x16_S64x24x12_d2_4 : S64x24x16x12x16.ReducesTo [2, 4] S64x24x12
  h_S_ : 0 < S_.numel
  bcast_S_S64x24x12 : S_.BroadcastsInDim S64x24x12 (![] : Fin 0 → Fin S64x24x12.rank)
  shapeCasts_S64x24x12_S64x1x288 : S64x24x12.ShapeCasts S64x1x288
  shapeCasts_S64x4096x24x12_S64x4096x288 : S64x4096x24x12.ShapeCasts S64x4096x288
  slices_S64x4096x288_S64x2048x288_0_0_0 : S64x4096x288.Slices ![0, 0, 0] S64x2048x288
  slices_S64x4096x288_S64x2048x288_0_2048_0 : S64x4096x288.Slices ![0, 2048, 0] S64x2048x288
  natLt_1_32 : 1 < 32
  reducesTo_S64x1x288_S64x1_d2 : S64x1x288.ReducesTo [2] S64x1
  bcast_S64x1_S64x1x1_0_1 : S64x1.BroadcastsInDim S64x1x1 (![0, 1] : Fin 2 → Fin S64x1x1.rank)
  bcast_S_S64x1x1 : S_.BroadcastsInDim S64x1x1 (![] : Fin 0 → Fin S64x1x1.rank)
  bcast_S_S64x1x288 : S_.BroadcastsInDim S64x1x288 (![] : Fin 0 → Fin S64x1x288.rank)
  bcast_S64x1x1_S64x1x288_0_1_2 : S64x1x1.BroadcastsInDim S64x1x288 (![0, 1, 2] : Fin 3 → Fin S64x1x288.rank)
  bcast_S_S64x1 : S_.BroadcastsInDim S64x1 (![] : Fin 0 → Fin S64x1.rank)
  bcast_S64x1x288_S64x2048x288_0_1_2 : S64x1x288.BroadcastsInDim S64x2048x288 (![0, 1, 2] : Fin 3 → Fin S64x2048x288.rank)
  reducesTo_S64x2048x288_S64x2048_d2 : S64x2048x288.ReducesTo [2] S64x2048
  bcast_S64x1_S64x2048_0_1 : S64x1.BroadcastsInDim S64x2048 (![0, 1] : Fin 2 → Fin S64x2048.rank)
  bcast_S_S64x2048x288 : S_.BroadcastsInDim S64x2048x288 (![] : Fin 0 → Fin S64x2048x288.rank)
  concatenates_S64x2048_S64x2048_S64x4096_d1 : Shape.Concatenates [S64x2048, S64x2048] S64x4096 1

variable [Facts₀]

class Facts : Prop extends Facts₀ where

variable [Facts]
-- ==== Proof.RefResults.lean ====
/-
  The reference's run, read back: what its two result buffers hold as terms of the two arguments.

  The reference is a straight line of host operations, so after its run every buffer holds the fold of the operations'
  results over the launch memory. Folded at a result buffer, that is the composition of the operations the result
  depends on — the reference's last stage (the join of a half's masked maxima with its masked means) applied to the
  stages before it, down to the two arguments. The fold and the stages are two spellings of that one composed term:
  the equalities are closed by unfolding, at any float instance — operand by operand across the last join (the fold is
  computed through a join's operands only once each stands alone), so that the join itself is never opened. No operation writes an argument's buffer.
-/
import proofs.«135312_j41695542510189_1_alg».proof.Proof.RefRead

set_option maxRecDepth 65536

noncomputable section

namespace Cert.ReferenceIdeal.Results

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first result buffer: the identity features, as the last stage of the arguments. -/
theorem out0 (c : Dev nD) :
    (after ops (launchContents m c) (Proc.devRef .tc main_v36) : (⟨S64x4096, .f32⟩ : BufTy).Contents (Elt F))
      = val_main_v36 (F := F) (m ((c.tc : Thread nD τ).loc main_arg0)) (m ((c.tc : Thread nD τ).loc main_arg1)) := by
  after_results_simp
  try simp only [TRef.ofBuf, TRef.toBuf, cast_eq]
  unfold val_main_v36
  refine congrArg₂ (fun (a b : (⟨S64x2048, .f32⟩ : BufTy).Contents (Elt F)) =>
    concatenate S64x4096 1 [⟨S64x2048, a⟩, ⟨S64x2048, b⟩] concatenates_S64x2048_S64x2048_S64x4096_d1) ?_ ?_ <;>
    (after_results_simp; try simp only [TRef.ofBuf, TRef.toBuf, cast_eq]) <;> rfl

/-- The second result buffer: the cloth features. -/
theorem out1 (c : Dev nD) :
    (after ops (launchContents m c) (Proc.devRef .tc main_v48) : (⟨S64x4096, .f32⟩ : BufTy).Contents (Elt F))
      = val_main_v48 (F := F) (m ((c.tc : Thread nD τ).loc main_arg0)) (m ((c.tc : Thread nD τ).loc main_arg1)) := by
  after_results_simp
  try simp only [TRef.ofBuf, TRef.toBuf, cast_eq]
  unfold val_main_v48
  refine congrArg₂ (fun (a b : (⟨S64x2048, .f32⟩ : BufTy).Contents (Elt F)) =>
    concatenate S64x4096 1 [⟨S64x2048, a⟩, ⟨S64x2048, b⟩] concatenates_S64x2048_S64x2048_S64x4096_d1) ?_ ?_ <;>
    (after_results_simp; try simp only [TRef.ofBuf, TRef.toBuf, cast_eq]) <;> rfl

/-- No operation writes the first argument. -/
theorem kept0 (c : Dev nD) :
    after ops (launchContents m c) (Proc.devRef .tc main_arg0) = m ((c.tc : Thread nD τ).loc main_arg0) := by
  after_results_simp <;> rfl

/-- No operation writes the second argument. -/
theorem kept1 (c : Dev nD) :
    after ops (launchContents m c) (Proc.devRef .tc main_arg1) = m ((c.tc : Thread nD τ).loc main_arg1) := by
  after_results_simp <;> rfl

/-- Every weakly fair execution of the reference terminates with each result at its last stage of the arguments and
    the arguments unchanged. -/
theorem run_values : θ_run defs (onTc (τ := τ) (main (F := F))) ⟨m, fun _ => 0, ρ⟩ fun r => ∀ c : Dev nD,
      r.2.mem ((c.tc : Thread nD τ).loc main_v36)
        = val_main_v36 (F := F) (m ((c.tc : Thread nD τ).loc main_arg0)) (m ((c.tc : Thread nD τ).loc main_arg1))
      ∧ r.2.mem ((c.tc : Thread nD τ).loc main_v48)
        = val_main_v48 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v36).trans (out0 m c), (h c main_v48).trans (out1 m c),
      (h c main_arg0).trans (kept0 m c), (h c main_arg1).trans (kept1 m c)⟩)
    (run m ρ)

end Cert.ReferenceIdeal.Results

end
-- ==== Proof.KHost.lean ====
/-
  What the kernel program's host prologue leaves at the first region's entry.

  Before its two pooling regions the kernel program runs, on the host, the same preprocessing as the reference,
  operation for operation and literal for literal: the label mask doubled along the batch, the cloth image
  (label 2 or 3) averaged over 16 × 16 patches and thresholded at one half, its complement and its fallback, the two
  masks' float images and their clamped counts, and the flattened input cut into its two channel halves. So each
  buffer the regions and the closing host operations read holds, at the first region's entry, the reference's own
  term of the two arguments (the stages of the reference read back one operation at a time): the equalities below
  are between two spellings of one composed term, closed by unfolding, at any float instance.
  The names differ by the programs' numbering: the kernel's %26, %29, %32 are the reference's %37, %28, %40.
-/
import proofs.«135312_j41695542510189_1_alg».proof.Proof.Gen.KernelIdeal.Frame
import proofs.«135312_j41695542510189_1_alg».proof.Proof.RefRead
import Idealize.ShloMosaic.Lib.StableHlo.Run

set_option maxRecDepth 65536

noncomputable section

namespace Cert.KernelIdeal.Entry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The two arguments as launched, at the reference's argument types. -/
abbrev a0 (c : Dev nD) : (⟨Cert.ReferenceIdeal.S64x4096x24x12, .f32⟩ : BufTy).Contents (Elt F) := m ((c : Thread nD τ).loc main_arg0)
abbrev a1 (c : Dev nD) : (⟨Cert.ReferenceIdeal.S32x384x192, .i32⟩ : BufTy).Contents (Elt F) := m ((c : Thread nD τ).loc main_arg1)

/-- The identity half of the flattened input. -/
theorem entry_v15 (c : Dev nD) : (W3 m ρ c (Proc.devRef .tc main_v15) : (⟨S64x2048x288, .f32⟩ : BufTy).Contents (Elt F))
    = Cert.ReferenceIdeal.Read.val_main_v15 (F := F) (a0 m c) := by
  after_results_simp
  try simp only [TRef.ofBuf, TRef.toBuf, cast_eq]
  rfl

/-- The cloth half of the flattened input. -/
theorem entry_v16 (c : Dev nD) : (W3 m ρ c (Proc.devRef .tc main_v16) : (⟨S64x2048x288, .f32⟩ : BufTy).Contents (Elt F))
    = Cert.ReferenceIdeal.Read.val_main_v16 (F := F) (a0 m c) := by
  after_results_simp
  try simp only [TRef.ofBuf, TRef.toBuf, cast_eq]
  rfl

/-- The identity mask's float image. -/
theorem entry_v25 (c : Dev nD) : (W3 m ρ c (Proc.devRef .tc main_v25) : (⟨S64x1x288, .f32⟩ : BufTy).Contents (Elt F))
    = Cert.ReferenceIdeal.Read.val_main_v25 (F := F) (a1 m c) := by
  after_results_simp
  try simp only [TRef.ofBuf, TRef.toBuf, cast_eq]
  rfl

/-- The cloth mask's float image. -/
theorem entry_v26 (c : Dev nD) : (W3 m ρ c (Proc.devRef .tc main_v26) : (⟨S64x1x288, .f32⟩ : BufTy).Contents (Elt F))
    = Cert.ReferenceIdeal.Read.val_main_v37 (F := F) (a1 m c) := by
  after_results_simp
  try simp only [TRef.ofBuf, TRef.toBuf, cast_eq]
  rfl

/-- The identity mask's count, at least one. -/
theorem entry_v29 (c : Dev nD) : (W3 m ρ c (Proc.devRef .tc main_v29) : (⟨S64x1, .f32⟩ : BufTy).Contents (Elt F))
    = Cert.ReferenceIdeal.Read.val_main_v28 (F := F) (a1 m c) := by
  after_results_simp
  try simp only [TRef.ofBuf, TRef.toBuf, cast_eq]
  rfl

/-- The cloth mask's count, at least one. -/
theorem entry_v32 (c : Dev nD) : (W3 m ρ c (Proc.devRef .tc main_v32) : (⟨S64x1, .f32⟩ : BufTy).Contents (Elt F))
    = Cert.ReferenceIdeal.Read.val_main_v40 (F := F) (a1 m c) := by
  after_results_simp
  try simp only [TRef.ofBuf, TRef.toBuf, cast_eq]
  rfl

end Cert.KernelIdeal.Entry

end
-- ==== Proof.PoolSpec.lean ====
/-
  The mathematics both programs compute, stated once over index coordinates and importing neither program.

  An array X of shape [64, 2048, 288] (a batch of 64, 2048 channels, 288 spatial positions) is pooled over its
  last axis under a mask M of shape [64, 1, 288] that depends on the batch entry and the position only:
    * the masked SUM of row (b, c) is  Σ_k X(b, c, k) · M(b, 0, k);
    * the masked MAX of row (b, c) is  max_k (X(b, c, k) if M(b, 0, k) > 1/2 else -∞), taken from -∞.
  Both are kept in the form the extended reals give them: a finite sum of products, and a fold of `max` from the
  value of the pattern 0xFF800000 (which is -∞; it is never evaluated, the same word stands on both sides).

  A mask that is the image of a one-bit word (0 ↦ 0, 1 ↦ 1) exceeds one half exactly where the bit is set
  (`gt_half_of_bit`): this is what lets a comparison of the float mask against 0.5 stand for the bit itself.

  The second half reads one BLOCK: a [32, 128, 288] block x0 of X and a [32, 1, 288] block x1 of M, pooled by a
  lane reduction over the last axis, give at (p, q) the same sum and the same fold over the block's own entries.
-/
import Idealize.ShloMosaic.Lib.ValueIdx
import Idealize.ShloMosaic.Lib.Pipeline.Value
import Idealize.ShloMosaic.PureOps.Ideal.Laws

noncomputable section

open scoped BigOperators

namespace Cert.Pool

open Idealize.ShloMosaic Idealize.ShloMosaic.ValueIdx

/-- The whole arrays' shapes and a block's shapes. -/
abbrev SX : Shape := ⟨3, ![64, 2048, 288]⟩
abbrev SM : Shape := ⟨3, ![64, 1, 288]⟩
abbrev SO : Shape := ⟨2, ![64, 2048]⟩
abbrev BX : Shape := ⟨3, ![32, 128, 288]⟩
abbrev BM : Shape := ⟨3, ![32, 1, 288]⟩
abbrev BO : Shape := ⟨2, ![32, 128]⟩

/-- One entry's contribution to the masked maximum: the entry where the mask exceeds one half, -∞ elsewhere. -/
def keep (mk x : EReal) : EReal :=
  Scalar.select (Ideal.cmp .ogt mk (Ideal.ofBits .f32 0x3F000000#32)) x (Ideal.ofBits .f32 0xFF800000#32)

/-- The masked sum of row (b, c). -/
def rowSumAt (X : SX.Idx → EReal) (M : SM.Idx → EReal) (b : Fin 64) (c : Fin 2048) : EReal :=
  ∑ k : Fin 288, X (ix3 b c k) * M (ix3 b (0 : Fin 1) k)

/-- The masked maximum of row (b, c). -/
def rowMaxAt (X : SX.Idx → EReal) (M : SM.Idx → EReal) (b : Fin 64) (c : Fin 2048) : EReal :=
  (Finset.univ : Finset (Fin 288)).fold max (Ideal.ofBits .f32 0xFF800000#32)
    (fun k => keep (M (ix3 b (0 : Fin 1) k)) (X (ix3 b c k)))

/-- The two pooled arrays, [64, 2048]. -/
def rowSum (X : SX.Idx → EReal) (M : SM.Idx → EReal) : SO.Idx → EReal :=
  fun i => rowSumAt X M ⟨(i 0).val, idx2_lt0 i⟩ ⟨(i 1).val, idx2_lt1 i⟩
def rowMax (X : SX.Idx → EReal) (M : SM.Idx → EReal) : SO.Idx → EReal :=
  fun i => rowMaxAt X M ⟨(i 0).val, idx2_lt0 i⟩ ⟨(i 1).val, idx2_lt1 i⟩

theorem rowSum_ix2 (X : SX.Idx → EReal) (M : SM.Idx → EReal) (b : Fin 64) (c : Fin 2048) :
    rowSum X M (ix2 b c) = rowSumAt X M b c := rfl
theorem rowMax_ix2 (X : SX.Idx → EReal) (M : SM.Idx → EReal) (b : Fin 64) (c : Fin 2048) :
    rowMax X M (ix2 b c) = rowMaxAt X M b c := rfl

/-- The pattern 0x3F000000 is one half. -/
theorem ofBits_half : Ideal.ofBits .f32 0x3F000000#32 = (((1 : ℝ) / 2 : ℝ) : EReal) := by
  simp [Ideal.ofBits, Ideal.ieee, -EReal.coe_mul]; norm_num

/-- One half lies strictly between zero and one. -/
theorem half_lt_one : (((1 : ℝ) / 2 : ℝ) : EReal) < ((1 : ℝ) : EReal) := EReal.coe_lt_coe_iff.mpr (by norm_num)
theorem not_half_lt_zero : ¬ (((1 : ℝ) / 2 : ℝ) : EReal) < ((0 : ℝ) : EReal) := fun h => by
  have h' := EReal.coe_lt_coe_iff.mp h
  norm_num at h'

/-- A one-bit word read as a number (0 or 1) exceeds one half exactly when the bit is set. -/
theorem gt_half_of_bit (w : BitVec 1) :
    Ideal.cmp .ogt (((w.toNat : ℝ) : EReal)) (Ideal.ofBits .f32 0x3F000000#32) = w := by
  rw [ofBits_half]
  have hw : w = 0#1 ∨ w = 1#1 := by
    rcases Nat.lt_or_ge w.toNat 1 with h | h
    · left; apply BitVec.eq_of_toNat_eq; simp; omega
    · right; apply BitVec.eq_of_toNat_eq; have := w.isLt; simp; omega
  rcases hw with rfl | rfl
  · show BitVec.ofBool (decide ((((1 : ℝ) / 2 : ℝ) : EReal) < ((((0#1 : BitVec 1).toNat : ℕ) : ℝ) : EReal))) = 0#1
    rw [show ((((0#1 : BitVec 1).toNat : ℕ) : ℝ)) = 0 from by simp, decide_eq_false not_half_lt_zero]
    rfl
  · show BitVec.ofBool (decide ((((1 : ℝ) / 2 : ℝ) : EReal) < ((((1#1 : BitVec 1).toNat : ℕ) : ℝ) : EReal))) = 1#1
    rw [show ((((1#1 : BitVec 1).toNat : ℕ) : ℝ)) = 1 from by simp, decide_eq_true half_lt_one]
    rfl

/-! ## One block -/

/-- A lane-reduction index of a block: row (p, q) with the lane k put back. -/
theorem lift_eq (hr : BX.Reduces [2] BO) (p : Fin 32) (q : Fin 128) (k : Fin 288) :
    hr.lift (ix2 p q) k = ix3 p q k := by
  funext a; apply Fin.ext
  match a with
  | ⟨0, _⟩ => rfl
  | ⟨1, _⟩ => rfl
  | ⟨2, _⟩ => rfl

/-- The mask block broadcast along the channel axis, read at (p, q, k), is the mask at (p, 0, k). -/
theorem bcast_eq (x1 : BM.Idx → EReal) (hb : BM.Broadcasts BX) (p : Fin 32) (q : Fin 128) (k : Fin 288) :
    broadcastTo BX x1 hb (ix3 p q k) = x1 (ix3 p (0 : Fin 1) k) :=
  broadcastTo_apply x1 hb (ix3 p q k) (ix3 p (0 : Fin 1) k) fun a => by
    match a with
    | ⟨0, _⟩ => rfl
    | ⟨1, _⟩ => rfl
    | ⟨2, _⟩ => rfl

/-- The block's lane sum of entry times mask, at (p, q). -/
theorem blockSum_apply (x0 : FVec Ideal BX .f32) (x1 : FVec Ideal BM .f32) (hc0 : BX.ShapeCasts BX) (hc1 : BM.ShapeCasts BM)
    (hb : BM.Broadcasts BX) (hr : BX.Reduces [2] BO) (hφ : FKind.Formats .f32)
    (hacc : (0x00000000#32 : BitVec 32) = FKind.add.neutral .f32 hφ) (p : Fin 32) (q : Fin 128) :
    multiReduction (F := Ideal) .add [2] BO
        (mulf (shapeCast BX x0 hc0) (broadcastTo BX (shapeCast BM (shapeCast BM x1 hc1) hc1) hb)) 0x00000000#32 hr hφ hacc (ix2 p q)
      = ∑ k : Fin 288, x0 (ix3 p q k) * x1 (ix3 p (0 : Fin 1) k) := by
  rw [shapeCast_self, shapeCast_self, shapeCast_self]
  refine (Ideal.multiReduction_add_single _ _ hr hφ hacc (ix2 p q)).trans ?_
  show (∑ k : Fin 288, x0 (hr.lift (ix2 p q) k) * broadcastTo BX x1 hb (hr.lift (ix2 p q) k)) = _
  refine Finset.sum_congr rfl fun k _ => ?_
  rw [lift_eq hr p q k, bcast_eq]

/-- The block's lane maximum of the entries kept where the mask exceeds one half, at (p, q). -/
theorem blockMax_apply (x0 : FVec Ideal BX .f32) (x1 : FVec Ideal BM .f32) (hc0 : BX.ShapeCasts BX) (hc1 : BM.ShapeCasts BM)
    (hb : BM.Broadcasts BX) (hr : BX.Reduces [2] BO) (hφ : FKind.Formats .f32)
    (hacc : (0xFF800000#32 : BitVec 32) = FKind.maximumf.neutral .f32 hφ) (p : Fin 32) (q : Fin 128) :
    multiReduction (F := Ideal) .maximumf [2] BO
        (select (cmpf (F := Ideal) (φ := .f32) .ogt (broadcastTo BX (shapeCast BM (shapeCast BM x1 hc1) hc1) hb)
            (broadcast BX (Scalar.ofBits (F := Ideal) .f32 0x3F000000#32)))
          (shapeCast BX x0 hc0) (broadcast BX (Scalar.ofBits (F := Ideal) .f32 0xFF800000#32))) 0xFF800000#32 hr hφ hacc (ix2 p q)
      = (Finset.univ : Finset (Fin 288)).fold max (Ideal.ofBits .f32 0xFF800000#32)
          (fun k => keep (x1 (ix3 p (0 : Fin 1) k)) (x0 (ix3 p q k))) := by
  rw [shapeCast_self, shapeCast_self, shapeCast_self]
  refine (Ideal.multiReduction_maximumf_single _ _ hr hφ hacc (ix2 p q)).trans ?_
  show (Finset.univ : Finset (Fin 288)).fold max (Ideal.ofBits .f32 0xFF800000#32)
      (fun k => Scalar.select (Ideal.cmp .ogt (broadcastTo BX x1 hb (hr.lift (ix2 p q) k)) (Ideal.ofBits .f32 0x3F000000#32))
        (x0 (hr.lift (ix2 p q) k)) (Ideal.ofBits .f32 0xFF800000#32)) = _
  refine congrArg (fun f : Fin 288 → EReal => (Finset.univ : Finset (Fin 288)).fold max (Ideal.ofBits .f32 0xFF800000#32) f)
    (funext fun (k : Fin 288) => ?_)
  rw [lift_eq hr p q k, bcast_eq x1 hb p q k]
  rfl

end Cert.Pool

end
-- ==== Proof.Region0.lean ====
/-
  Pooling region 0 (the identity half), read as values at the extended reals.

  The region streams the array X = `main_v15` ([64, 2048, 288]) and the mask M = `main_v25` ([64, 1, 288]) through a
  2 × 16 grid: point (bi, ci) holds rows 32·bi … 32·bi + 31 and channels 128·ci … 128·ci + 127 of X, and rows
  32·bi … 32·bi + 31 of M (the mask's block does not move with ci). For each of its 32 × 128 rows the body writes

      sum block (p, q) = Σ_k x0(p, q, k) · x1(p, 0, k)        max block (p, q) = max_k keep(x1(p, 0, k), x0(p, q, k))

  where x0, x1 are the point's two input blocks. An input block's entry is the array's entry at the block's offset
  (`xblk_apply`, `mblk_apply`: index × block size + the coordinate inside the block), so what a point writes back is
  its own 32 × 128 block of ONE function of X and M — the masked row sum, the masked row maximum of PoolSpec
  (`flushed_sum`, `flushed_max`). The grid's blocks tile [64, 2048] (`cover`: row r lies in block r / 32, channel
  ch in block ch / 128), so after the region the two output arrays ARE those functions (`final_sum`, `final_max`).
  Everything is stated at ANY contents `V` the region may be entered from.
-/
import proofs.«135312_j41695542510189_1_alg».proof.Proof.Gen.KernelIdeal.Frame
import proofs.«135312_j41695542510189_1_alg».proof.Proof.PoolSpec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Pool
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body leaves, at a row of the block -/

/-- The sum window's buffer after the body, at row (p, q) of the block: the lane sum of entry times mask. -/
theorem out_sum_apply (x0 : Vec Ideal S32x128x288 .f32) (x1 : Vec Ideal S32x1x288 .f32) (p : Fin 32) (q : Fin 128) :
    out0_2 x0 x1 (ix2 p q) = ∑ k : Fin 288, x0 (ix3 p q k) * x1 (ix3 p (0 : Fin 1) k) := by
  unfold out0_2
  rw [View.canon_unit_zero hz2]
  simp only [View.ld_unit_zero (S := S32x128x288) hz3, View.ld_unit_zero (S := S32x1x288) hz3]
  unfold k0_pay3 k0_pay1 k0_pay2
  exact blockSum_apply x0 x1 _ _ _ _ _ _ p q

/-- The max window's buffer after the body, at row (p, q) of the block: the lane maximum of the kept entries. -/
theorem out_max_apply (x0 : Vec Ideal S32x128x288 .f32) (x1 : Vec Ideal S32x1x288 .f32) (p : Fin 32) (q : Fin 128) :
    out0_3 x0 x1 (ix2 p q) = (Finset.univ : Finset (Fin 288)).fold max (Ideal.ofBits .f32 0xFF800000#32)
      (fun k => keep (x1 (ix3 p (0 : Fin 1) k)) (x0 (ix3 p q k))) := by
  unfold out0_3
  rw [View.canon_unit_zero hz2]
  simp only [View.ld_unit_zero (S := S32x128x288) hz3, View.ld_unit_zero (S := S32x1x288) hz3]
  unfold k0_pay4 k0_pay1 k0_pay2
  exact blockMax_apply x0 x1 _ _ _ _ _ _ p q

/-! ## The index maps over the grid -/

/-- The printed index maps, decided over the 32 grid points: X's block moves with the outputs' on both axes, M's on
    the row axis only, the two outputs' blocks coincide, and the outputs' block indices range over 2 × 16. -/
theorem idx_facts : ∀ t : Fin cfg0.N,
    win0_0.index t (0 : Fin 3) = win0_2.index t (0 : Fin 2) ∧ win0_0.index t (1 : Fin 3) = win0_2.index t (1 : Fin 2)
    ∧ win0_0.index t (2 : Fin 3) = 0
    ∧ win0_1.index t (0 : Fin 3) = win0_2.index t (0 : Fin 2) ∧ win0_1.index t (1 : Fin 3) = 0 ∧ win0_1.index t (2 : Fin 3) = 0
    ∧ win0_3.index t (0 : Fin 2) = win0_2.index t (0 : Fin 2) ∧ win0_3.index t (1 : Fin 2) = win0_2.index t (1 : Fin 2)
    ∧ win0_2.index t (0 : Fin 2) ≤ 1 ∧ win0_2.index t (1 : Fin 2) ≤ 15 :=
  (by decide +kernel : ∀ t : Fin grid0.N, _)

/-- Every block of the 2 × 16 box is some point's. -/
theorem idx_onto : ∀ (q0 : Fin 2) (q1 : Fin 16), ∃ t : Fin cfg0.N, win0_2.index t = ![q0.val, q1.val] :=
  (by decide +kernel : ∀ (q0 : Fin 2) (q1 : Fin 16), ∃ t : Fin grid0.N, win0_2.index t = ![q0.val, q1.val])

/-! ## The input blocks as entries of the arrays -/

/-- X's block at point t, at y, is X at (32·bi + y₀, 128·ci + y₁, y₂), (bi, ci) the outputs' block index at t. -/
theorem xblk_apply (c : Dev nD) (t : Fin cfg0.N) (y : S32x128x288.Idx) (k : S64x2048x288.Idx)
    (h0 : (k 0).val = win0_2.index t (0 : Fin 2) * 32 + (y 0).val)
    (h1 : (k 1).val = win0_2.index t (1 : Fin 2) * 128 + (y 1).val) (h2 : (k 2).val = (y 2).val) :
    (iblk0 V c 0 t : Vec Ideal S32x128x288 .f32) y = (V c main_v15 : Vec Ideal S64x2048x288 .f32) k := by
  obtain ⟨e0, e1, e2, -⟩ := idx_facts t
  unfold iblk0
  rw [View.read_apply]
  show (V c main_v15 : Vec Ideal S64x2048x288 .f32) _ = (V c main_v15 : Vec Ideal S64x2048x288 .f32) k
  refine congrArg _ ?_
  funext a
  apply Fin.ext
  match a with
  | ⟨0, _⟩ => show win0_0.index t (0 : Fin 3) * 32 + 1 * (y 0).val = (k 0).val; omega
  | ⟨1, _⟩ => show win0_0.index t (1 : Fin 3) * 128 + 1 * (y 1).val = (k 1).val; omega
  | ⟨2, _⟩ => show win0_0.index t (2 : Fin 3) * 288 + 1 * (y 2).val = (k 2).val; omega

/-- M's block at point t, at y, is M at (32·bi + y₀, y₁, y₂). -/
theorem mblk_apply (c : Dev nD) (t : Fin cfg0.N) (y : S32x1x288.Idx) (k : S64x1x288.Idx)
    (h0 : (k 0).val = win0_2.index t (0 : Fin 2) * 32 + (y 0).val) (h1 : (k 1).val = (y 1).val) (h2 : (k 2).val = (y 2).val) :
    (iblk0 V c 1 t : Vec Ideal S32x1x288 .f32) y = (V c main_v25 : Vec Ideal S64x1x288 .f32) k := by
  obtain ⟨-, -, -, e0, e1, e2, -⟩ := idx_facts t
  unfold iblk0
  rw [View.read_apply]
  show (V c main_v25 : Vec Ideal S64x1x288 .f32) _ = (V c main_v25 : Vec Ideal S64x1x288 .f32) k
  refine congrArg _ ?_
  funext a
  apply Fin.ext
  match a with
  | ⟨0, _⟩ => show win0_1.index t (0 : Fin 3) * 32 + 1 * (y 0).val = (k 0).val; omega
  | ⟨1, _⟩ => show win0_1.index t (1 : Fin 3) * 1 + 1 * (y 1).val = (k 1).val; omega
  | ⟨2, _⟩ => show win0_1.index t (2 : Fin 3) * 288 + 1 * (y 2).val = (k 2).val; omega

/-! ## A block of the outputs is a block of the pooled arrays -/

/-- Over blocks x0, x1 that are the arrays X, M read at the offsets (32·b0, 128·c0) and (32·b0), the sum buffer at y is
    the masked row sum of X and M at the array index i under y. -/
theorem block_sum_eq (X : Vec Ideal S64x2048x288 .f32) (M : Vec Ideal S64x1x288 .f32)
    (x0 : Vec Ideal S32x128x288 .f32) (x1 : Vec Ideal S32x1x288 .f32) (b0 c0 : ℕ)
    (hx0 : ∀ (y : S32x128x288.Idx) (k : S64x2048x288.Idx), (k 0).val = b0 * 32 + (y 0).val →
      (k 1).val = c0 * 128 + (y 1).val → (k 2).val = (y 2).val → x0 y = X k)
    (hx1 : ∀ (y : S32x1x288.Idx) (k : S64x1x288.Idx), (k 0).val = b0 * 32 + (y 0).val →
      (k 1).val = (y 1).val → (k 2).val = (y 2).val → x1 y = M k)
    (y : S32x128.Idx) (i : S64x2048.Idx) (hi0 : (i 0).val = b0 * 32 + 1 * (y 0).val) (hi1 : (i 1).val = c0 * 128 + 1 * (y 1).val) :
    out0_2 x0 x1 y = rowSum X M i := by
  obtain ⟨p, q, rfl⟩ : ∃ (p : Fin 32) (q : Fin 128), y = ix2 p q := ⟨y 0, y 1, eq_ix2 y⟩
  obtain ⟨b, ch, rfl⟩ : ∃ (b : Fin 64) (ch : Fin 2048), i = ix2 b ch := ⟨i 0, i 1, eq_ix2 i⟩
  have hb : b.val = b0 * 32 + p.val := by have := hi0; simp only [Nat.one_mul] at this; exact this
  have hc : ch.val = c0 * 128 + q.val := by have := hi1; simp only [Nat.one_mul] at this; exact this
  rw [out_sum_apply, rowSum_ix2]
  unfold rowSumAt
  refine Finset.sum_congr rfl fun k _ => ?_
  rw [hx0 (ix3 p q k) (ix3 b ch k) hb hc rfl, hx1 (ix3 p (0 : Fin 1) k) (ix3 b (0 : Fin 1) k) hb rfl rfl]

/-- The same for the max buffer. -/
theorem block_max_eq (X : Vec Ideal S64x2048x288 .f32) (M : Vec Ideal S64x1x288 .f32)
    (x0 : Vec Ideal S32x128x288 .f32) (x1 : Vec Ideal S32x1x288 .f32) (b0 c0 : ℕ)
    (hx0 : ∀ (y : S32x128x288.Idx) (k : S64x2048x288.Idx), (k 0).val = b0 * 32 + (y 0).val →
      (k 1).val = c0 * 128 + (y 1).val → (k 2).val = (y 2).val → x0 y = X k)
    (hx1 : ∀ (y : S32x1x288.Idx) (k : S64x1x288.Idx), (k 0).val = b0 * 32 + (y 0).val →
      (k 1).val = (y 1).val → (k 2).val = (y 2).val → x1 y = M k)
    (y : S32x128.Idx) (i : S64x2048.Idx) (hi0 : (i 0).val = b0 * 32 + 1 * (y 0).val) (hi1 : (i 1).val = c0 * 128 + 1 * (y 1).val) :
    out0_3 x0 x1 y = rowMax X M i := by
  obtain ⟨p, q, rfl⟩ : ∃ (p : Fin 32) (q : Fin 128), y = ix2 p q := ⟨y 0, y 1, eq_ix2 y⟩
  obtain ⟨b, ch, rfl⟩ : ∃ (b : Fin 64) (ch : Fin 2048), i = ix2 b ch := ⟨i 0, i 1, eq_ix2 i⟩
  have hb : b.val = b0 * 32 + p.val := by have := hi0; simp only [Nat.one_mul] at this; exact this
  have hc : ch.val = c0 * 128 + q.val := by have := hi1; simp only [Nat.one_mul] at this; exact this
  rw [out_max_apply, rowMax_ix2]
  unfold rowMaxAt
  refine congrArg (fun f : Fin 288 → EReal => (Finset.univ : Finset (Fin 288)).fold max (Ideal.ofBits .f32 0xFF800000#32) f)
    (funext fun (k : Fin 288) => ?_)
  rw [hx0 (ix3 p q k) (ix3 b ch k) hb hc rfl, hx1 (ix3 p (0 : Fin 1) k) (ix3 b (0 : Fin 1) k) hb rfl rfl]

/-! ## What each point writes back -/

/-- Point t writes back block t of the masked row sums of the arrays as the region finds them. -/
theorem flushed_sum (c : Dev nD) (t : Fin cfg0.N) :
    (dat0 V c).flushed 2 t = ((cfg0.win 2).blk t).view.read (Elt Ideal)
      (rowSum (V c main_v15 : Vec Ideal S64x2048x288 .f32) (V c main_v25 : Vec Ideal S64x1x288 .f32)) := by
  show (cfg0.win 2).cut (grid0.coords t) ((dat0 V c).after 2 t) = _
  rw [after0_2]
  funext j
  rw [View.read_apply]
  exact block_sum_eq (V c main_v15) (V c main_v25) (iblk0 V c 0 t) (iblk0 V c 1 t)
    (win0_2.index t (0 : Fin 2)) (win0_2.index t (1 : Fin 2))
    (fun y k h0 h1 h2 => xblk_apply V c t y k h0 h1 h2) (fun y k h0 h1 h2 => mblk_apply V c t y k h0 h1 h2)
    j (((cfg0.win 2).blk t).view.emb j) rfl rfl

/-- Point t writes back block t of the masked row maxima. -/
theorem flushed_max (c : Dev nD) (t : Fin cfg0.N) :
    (dat0 V c).flushed 3 t = ((cfg0.win 3).blk t).view.read (Elt Ideal)
      (rowMax (V c main_v15 : Vec Ideal S64x2048x288 .f32) (V c main_v25 : Vec Ideal S64x1x288 .f32)) := by
  obtain ⟨-, -, -, -, -, -, e0, e1, -⟩ := idx_facts t
  show (cfg0.win 3).cut (grid0.coords t) ((dat0 V c).after 3 t) = _
  rw [after0_3]
  funext j
  rw [View.read_apply]
  exact block_max_eq (V c main_v15) (V c main_v25) (iblk0 V c 0 t) (iblk0 V c 1 t)
    (win0_2.index t (0 : Fin 2)) (win0_2.index t (1 : Fin 2))
    (fun y k h0 h1 h2 => xblk_apply V c t y k h0 h1 h2) (fun y k h0 h1 h2 => mblk_apply V c t y k h0 h1 h2)
    j (((cfg0.win 3).blk t).view.emb j)
    (show win0_3.index t (0 : Fin 2) * 32 + 1 * (j 0).val = win0_2.index t (0 : Fin 2) * 32 + 1 * (j 0).val by rw [e0])
    (show win0_3.index t (1 : Fin 2) * 128 + 1 * (j 1).val = win0_2.index t (1 : Fin 2) * 128 + 1 * (j 1).val by rw [e1])

/-! ## The blocks tile the arrays -/

/-- An index of the sum array is in point t's block iff each coordinate is in the block's range on its axis. -/
theorem mem_blk_sum (t : Fin cfg0.N) (i : S64x2048.Idx) :
    i ∈ ((cfg0.win 2).blk t).view.set ↔ ∀ a : Fin 2, win0_2.index t a * S32x128.size a ≤ (i a).val
      ∧ (i a).val < win0_2.index t a * S32x128.size a + S32x128.size a := by
  show i ∈ ((View.whole main_v33_0).slice (win0_2.rect t)).set ↔ _
  rw [View.set_slice_whole, Rect.mem_set_unit]
  exact Iff.rfl

/-- The same for the max array. -/
theorem mem_blk_max (t : Fin cfg0.N) (i : S64x2048.Idx) :
    i ∈ ((cfg0.win 3).blk t).view.set ↔ ∀ a : Fin 2, win0_3.index t a * S32x128.size a ≤ (i a).val
      ∧ (i a).val < win0_3.index t a * S32x128.size a + S32x128.size a := by
  show i ∈ ((View.whole main_v33_1).slice (win0_3.rect t)).set ↔ _
  rw [View.set_slice_whole, Rect.mem_set_unit]
  exact Iff.rfl

/-- Every index of the sum array is in some point's block: row r in block r / 32, channel ch in block ch / 128. -/
theorem cover_sum (i : S64x2048.Idx) : ∃ t : Fin cfg0.N, (cfg0.win 2).flush t = true ∧ i ∈ ((cfg0.win 2).blk t).view.set := by
  have hi0 : (i 0).val < 64 := (i 0).isLt
  have hi1 : (i 1).val < 2048 := (i 1).isLt
  obtain ⟨t, ht⟩ := idx_onto ⟨(i 0).val / 32, by omega⟩ ⟨(i 1).val / 128, by omega⟩
  have q0 : win0_2.index t (0 : Fin 2) = (i 0).val / 32 := congrFun ht 0
  have q1 : win0_2.index t (1 : Fin 2) = (i 1).val / 128 := congrFun ht 1
  refine ⟨t, flush0_2 t, ?_⟩
  rw [mem_blk_sum]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 128 ≤ (i 1).val ∧ (i 1).val < win0_2.index t (1 : Fin 2) * 128 + 128; omega

/-- And of the max array. -/
theorem cover_max (i : S64x2048.Idx) : ∃ t : Fin cfg0.N, (cfg0.win 3).flush t = true ∧ i ∈ ((cfg0.win 3).blk t).view.set := by
  have hi0 : (i 0).val < 64 := (i 0).isLt
  have hi1 : (i 1).val < 2048 := (i 1).isLt
  obtain ⟨t, ht⟩ := idx_onto ⟨(i 0).val / 32, by omega⟩ ⟨(i 1).val / 128, by omega⟩
  obtain ⟨-, -, -, -, -, -, e0, e1, -⟩ := idx_facts t
  have q0 : win0_2.index t (0 : Fin 2) = (i 0).val / 32 := congrFun ht 0
  have q1 : win0_2.index t (1 : Fin 2) = (i 1).val / 128 := congrFun ht 1
  refine ⟨t, flush0_3 t, ?_⟩
  rw [mem_blk_max]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 128 ≤ (i 1).val ∧ (i 1).val < win0_3.index t (1 : Fin 2) * 128 + 128; omega

/-! ## The arrays after the region -/

/-- After the region the sum array is the masked row sums of X and M as the region found them. -/
theorem final_sum (c : Dev nD) : (dat0 V c).arrAt 2 cfg0.N
    = rowSum (V c main_v15 : Vec Ideal S64x2048x288 .f32) (V c main_v25 : Vec Ideal S64x1x288 .f32) :=
  (dat0 V c).arrAt_eq_of_cover 2 _ (fun t _ => flushed_sum V c t) cover_sum

/-- After the region the max array is the masked row maxima. -/
theorem final_max (c : Dev nD) : (dat0 V c).arrAt 3 cfg0.N
    = rowMax (V c main_v15 : Vec Ideal S64x2048x288 .f32) (V c main_v25 : Vec Ideal S64x1x288 .f32) :=
  (dat0 V c).arrAt_eq_of_cover 3 _ (fun t _ => flushed_max V c t) cover_max

end Cert.KernelIdeal.Region0

end
-- ==== Proof.PoolHost.lean ====
/-
  The reference's two pooled legs, read at a row.

  On the host the masked sum is a `stablehlo.reduce` with an add body, from the initial value 0, of the product of X
  with the float mask M broadcast along the channel axis; at row (b, ch) that is 0 + Σ_k X(b, ch, k) · M(b, 0, k), the
  masked row sum (`hostSum_apply`). The masked maximum is a `stablehlo.reduce` with a maximum body, from -∞, of
  `select` on the ONE-BIT mask B broadcast the same way: X where the bit is set, -∞ elsewhere. Read as a float the
  bit is 0 or 1 and exceeds one half exactly where it is set (`gt_half_of_bit`), so selecting on the bit is keeping
  the entries whose float mask exceeds one half: the masked row maximum of X under the mask `uitofp B`
  (`hostMax_apply`). A maximum's fold is over the lane coordinates in any order (max commutes and associates).
-/
import proofs.«135312_j41695542510189_1_alg».proof.Proof.PoolSpec
import Idealize.ShloMosaic.PureOps.Reduce

noncomputable section

open scoped BigOperators

namespace Cert.Pool

open Idealize.ShloMosaic Idealize.ShloMosaic.ValueIdx

/-- The scalar shape. -/
abbrev S0 : Shape := ⟨0, ![]⟩

/-- A reduced index of the whole array: row (b, ch) with the lane k put back. -/
theorem hlift_eq (hr : SX.Reduces [2] SO) (b : Fin 64) (ch : Fin 2048) (k : Fin 288) :
    hr.lift (ix2 b ch) k = ix3 b ch k := by
  funext a; apply Fin.ext
  match a with
  | ⟨0, _⟩ => rfl
  | ⟨1, _⟩ => rfl
  | ⟨2, _⟩ => rfl

/-- A [64, 1, 288] array broadcast along the channel axis, read at (b, ch, k), is the array at (b, 0, k). -/
theorem hbcast_eq {α : Type} (M : SM.Idx → α) (hb : SM.BroadcastsInDim SX ![0, 1, 2]) (b : Fin 64) (ch : Fin 2048) (k : Fin 288) :
    broadcastInDim SX ![0, 1, 2] hb M (ix3 b ch k) = M (ix3 b (0 : Fin 1) k) :=
  broadcastInDim_apply _ hb M (ix3 b ch k) (ix3 b (0 : Fin 1) k) fun a => by
    match a with
    | ⟨0, _⟩ => show b.val = if (64 : Nat) = 1 then 0 else b.val; rw [if_neg (by decide)]
    | ⟨1, _⟩ => show 0 = if (1 : Nat) = 1 then 0 else ch.val; rw [if_pos rfl]
    | ⟨2, _⟩ => show k.val = if (288 : Nat) = 1 then 0 else k.val; rw [if_neg (by decide)]

/-- The host's sum over the lanes of X times the broadcast mask, from 0, at row (b, ch): the masked row sum. -/
theorem hostSum_apply (X : FVec Ideal SX .f32) (M : FVec Ideal SM .f32) (hb : SM.BroadcastsInDim SX ![0, 1, 2])
    (hr' : SX.ReducesTo [2] SO) (hu : 0 < S0.numel) (b : Fin 64) (ch : Fin 2048) :
    Host.reduceAdd (F := Ideal) (mulf X (broadcastInDim SX ![0, 1, 2] hb M)) (constant S0 .f32 0x00000000#32) hr' hu (ix2 b ch)
      = rowSumAt X M b ch := by
  have hr : SX.Reduces [2] SO := by decide
  simp only [Host.reduceAdd, Ideal.hostReduceAdd_def]
  rw [Ideal.hostReduceAdd_single hr' hr]
  show Ideal.ofBits .f32 0x00000000#32
      + (∑ k : Fin 288, X (hr.lift (ix2 b ch) k) * broadcastInDim SX ![0, 1, 2] hb M (hr.lift (ix2 b ch) k)) = _
  rw [Ideal.ofBits_zero_f32, zero_add]
  unfold rowSumAt
  refine Finset.sum_congr rfl fun k _ => ?_
  rw [hlift_eq hr b ch k, hbcast_eq]

/-- The host's maximum over the lanes, from -∞, of X selected by the broadcast one-bit mask (else -∞), at row (b, ch):
    the masked row maximum of X under the mask's float image. -/
theorem hostMax_apply (X : FVec Ideal SX .f32) (B : IVec SM 1) (hb : SM.BroadcastsInDim SX ![0, 1, 2])
    (hb0 : S0.BroadcastsInDim SX ![]) (hr' : SX.ReducesTo [2] SO) (hu : 0 < S0.numel) (b : Fin 64) (ch : Fin 2048) :
    Host.reduce (FloatOps.maximumf (F := Ideal) (φ := .f32))
        (select (broadcastInDim SX ![0, 1, 2] hb B) X
          (broadcastInDim SX ![] hb0 (id (constant (F := Ideal) S0 .f32 0xFF800000#32))))
        (constant (F := Ideal) S0 .f32 0xFF800000#32) hr' hu (ix2 b ch)
      = rowMaxAt X (uitofp (F := Ideal) .f32 B) b ch := by
  have hr : SX.Reduces [2] SO := by decide
  rw [Host.reduce_eq_fold_single _ _ _ hr' hr hu]
  show (Finset.univ : Finset (Fin 288)).fold max (Ideal.ofBits .f32 0xFF800000#32)
      (fun k => Scalar.select (broadcastInDim SX ![0, 1, 2] hb B (hr.lift (ix2 b ch) k)) (X (hr.lift (ix2 b ch) k))
        (Ideal.ofBits .f32 0xFF800000#32)) = _
  unfold rowMaxAt
  refine congrArg (fun f : Fin 288 → EReal => (Finset.univ : Finset (Fin 288)).fold max (Ideal.ofBits .f32 0xFF800000#32) f)
    (funext fun (k : Fin 288) => ?_)
  rw [hlift_eq hr b ch k, hbcast_eq]
  show _ = Scalar.select (Ideal.cmp .ogt ((((B (ix3 b (0 : Fin 1) k)).toNat : ℝ) : EReal)) (Ideal.ofBits .f32 0x3F000000#32))
      (X (ix3 b ch k)) (Ideal.ofBits .f32 0xFF800000#32)
  rw [gt_half_of_bit]

end Cert.Pool

end
-- ==== Proof.RefPool.lean ====
/-
  The reference's four pooled arrays are the masked row sums and masked row maxima of PoolSpec.

  The reference splits the flattened input into its two channel halves X_id = `val_main_v15` and X_cloth =
  `val_main_v16` (each [64, 2048, 288]) and pools each under a one-bit mask of the positions: the complement of the
  cloth mask for the identity half (`val_main_v20`), the cloth mask with its all-pixels fallback for the cloth half
  (`val_main_v24`). The float images of the two masks are `val_main_v25` and `val_main_v37`. Per half,
    * the sum leg multiplies by the float mask broadcast along the channels and adds over the positions from 0
      (`val_main_v31`, `val_main_v43`): the masked row sum (`hostSum_apply`);
    * the max leg selects on the bit itself, -∞ where it is clear, and takes the maximum over the positions from -∞
      (`val_main_v35`, `val_main_v47`): the masked row maximum under the float mask (`hostMax_apply`).
-/
import proofs.«135312_j41695542510189_1_alg».proof.Proof.RefRead
import proofs.«135312_j41695542510189_1_alg».proof.Proof.PoolHost

noncomputable section

namespace Cert.ReferenceIdeal.Pooled

open Cert.ReferenceIdeal Cert.ReferenceIdeal.Gen Cert.ReferenceIdeal.Read Cert.Pool
open Idealize.ShloMosaic Idealize.ShloMosaic.ValueIdx

variable (x0 : (⟨S64x4096x24x12, .f32⟩ : BufTy).Contents (Elt Ideal)) (x1 : (⟨S32x384x192, .i32⟩ : BufTy).Contents (Elt Ideal))

/-- The identity half's sum leg. -/
theorem sum_id : val_main_v31 (F := Ideal) x0 x1 = rowSum (val_main_v15 (F := Ideal) x0) (val_main_v25 (F := Ideal) x1) := by
  funext i
  obtain ⟨b, ch, rfl⟩ : ∃ (b : Fin 64) (ch : Fin 2048), i = ix2 b ch := ⟨i 0, i 1, eq_ix2 i⟩
  rw [rowSum_ix2]
  unfold val_main_v31 val_main_v30 val_main_v29 val_main_cst_8
  exact hostSum_apply _ _ _ _ _ b ch

/-- The identity half's max leg. -/
theorem max_id : val_main_v35 (F := Ideal) x0 x1 = rowMax (val_main_v15 (F := Ideal) x0) (val_main_v25 (F := Ideal) x1) := by
  funext i
  obtain ⟨b, ch, rfl⟩ : ∃ (b : Fin 64) (ch : Fin 2048), i = ix2 b ch := ⟨i 0, i 1, eq_ix2 i⟩
  rw [rowMax_ix2]
  unfold val_main_v35 val_main_v34 val_main_call1_v1 val_main_call1_v2 val_main_call1_v0 val_main_cst_9 val_main_cst_10 val_main_v25
  exact hostMax_apply _ _ _ _ _ _ b ch

/-- The cloth half's sum leg. -/
theorem sum_cloth : val_main_v43 (F := Ideal) x0 x1 = rowSum (val_main_v16 (F := Ideal) x0) (val_main_v37 (F := Ideal) x1) := by
  funext i
  obtain ⟨b, ch, rfl⟩ : ∃ (b : Fin 64) (ch : Fin 2048), i = ix2 b ch := ⟨i 0, i 1, eq_ix2 i⟩
  rw [rowSum_ix2]
  unfold val_main_v43 val_main_v42 val_main_v41 val_main_cst_13
  exact hostSum_apply _ _ _ _ _ b ch

/-- The cloth half's max leg. -/
theorem max_cloth : val_main_v47 (F := Ideal) x0 x1 = rowMax (val_main_v16 (F := Ideal) x0) (val_main_v37 (F := Ideal) x1) := by
  funext i
  obtain ⟨b, ch, rfl⟩ : ∃ (b : Fin 64) (ch : Fin 2048), i = ix2 b ch := ⟨i 0, i 1, eq_ix2 i⟩
  rw [rowMax_ix2]
  unfold val_main_v47 val_main_v46 val_main_call2_v1 val_main_call2_v2 val_main_call2_v0 val_main_cst_14 val_main_cst_15 val_main_v37
  exact hostMax_apply _ _ _ _ _ _ b ch

end Cert.ReferenceIdeal.Pooled

end
-- ==== Proof.KTail.lean ====
/-
  The kernel program's two results are the reference's two results, as terms of the arguments.

  After the two pooling regions the kernel program divides each half's masked sums by that half's clamped count
  (broadcast along the channels) and joins, per half, the masked maxima and the averages along the channel axis. The
  regions leave the masked row sums and maxima of the arrays they were entered on (the two regions' modules); those
  arrays are, by the host prologue, the reference's own stages (the entry module); the reference's pooled legs are the
  same masked sums and maxima (the reference's pooling module). So each region's output is the reference's stage of
  the same name-by-role, the counts agree, and the closing divide and concatenate are the reference's last two
  operations applied to equal operands: the results are equal as whole arrays.
  Region 1 is entered on what region 0 leaves; region 0 writes only its own two outputs, so the arrays region 1 reads
  (the cloth half, the cloth mask) and the two counts are still the prologue's.
-/
import proofs.«135312_j41695542510189_1_alg».proof.Proof.KHost
import proofs.«135312_j41695542510189_1_alg».proof.Proof.Region0
import proofs.«135312_j41695542510189_1_alg».proof.Proof.Region1
import proofs.«135312_j41695542510189_1_alg».proof.Proof.RefPool

set_option maxRecDepth 65536

noncomputable section

namespace Cert.KernelIdeal.Tail

open Cert.KernelIdeal Cert.KernelIdeal.Gen Cert.KernelIdeal.Entry Cert.Pool
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The regions' outputs and the counts, after both regions -/

/-- Region 0's sums are the reference's identity-half sums. -/
theorem sum_id (c : Dev nD) : (W5 m ρ c (Proc.devRef .tc main_v33_0) : (⟨S64x2048, .f32⟩ : BufTy).Contents (Elt Ideal))
    = Cert.ReferenceIdeal.Read.val_main_v31 (F := Ideal) (a0 m c) (a1 m c) :=
  calc (W5 m ρ c (Proc.devRef .tc main_v33_0) : (⟨S64x2048, .f32⟩ : BufTy).Contents (Elt Ideal))
    _ = W4 m ρ c (Proc.devRef .tc main_v33_0) := W5_of_ne m ρ c main_v33_0 (by decide)
    _ = (dat0 (V3 m ρ) c).arrAt 2 cfg0.N := W4_arr m ρ c 2
    _ = rowSum (V3 m ρ c main_v15) (V3 m ρ c main_v25) := Region0.final_sum (V3 m ρ) c
    _ = rowSum (Cert.ReferenceIdeal.Read.val_main_v15 (F := Ideal) (a0 m c)) (Cert.ReferenceIdeal.Read.val_main_v25 (F := Ideal) (a1 m c)) :=
        congrArg₂ rowSum (entry_v15 m ρ c) (entry_v25 m ρ c)
    _ = _ := (Cert.ReferenceIdeal.Pooled.sum_id _ _).symm

/-- Region 0's maxima are the reference's identity-half maxima. -/
theorem max_id (c : Dev nD) : (W5 m ρ c (Proc.devRef .tc main_v33_1) : (⟨S64x2048, .f32⟩ : BufTy).Contents (Elt Ideal))
    = Cert.ReferenceIdeal.Read.val_main_v35 (F := Ideal) (a0 m c) (a1 m c) :=
  calc (W5 m ρ c (Proc.devRef .tc main_v33_1) : (⟨S64x2048, .f32⟩ : BufTy).Contents (Elt Ideal))
    _ = W4 m ρ c (Proc.devRef .tc main_v33_1) := W5_of_ne m ρ c main_v33_1 (by decide)
    _ = (dat0 (V3 m ρ) c).arrAt 3 cfg0.N := W4_arr m ρ c 3
    _ = rowMax (V3 m ρ c main_v15) (V3 m ρ c main_v25) := Region0.final_max (V3 m ρ) c
    _ = rowMax (Cert.ReferenceIdeal.Read.val_main_v15 (F := Ideal) (a0 m c)) (Cert.ReferenceIdeal.Read.val_main_v25 (F := Ideal) (a1 m c)) :=
        congrArg₂ rowMax (entry_v15 m ρ c) (entry_v25 m ρ c)
    _ = _ := (Cert.ReferenceIdeal.Pooled.max_id _ _).symm

/-- The cloth half and the cloth mask as region 1 finds them are still the prologue's. -/
theorem entry1_v16 (c : Dev nD) : (V4 m ρ c main_v16 : (⟨S64x2048x288, .f32⟩ : BufTy).Contents (Elt Ideal))
    = Cert.ReferenceIdeal.Read.val_main_v16 (F := Ideal) (a0 m c) :=
  (W4_of_ne m ρ c main_v16 (by decide)).trans (entry_v16 m ρ c)
theorem entry1_v26 (c : Dev nD) : (V4 m ρ c main_v26 : (⟨S64x1x288, .f32⟩ : BufTy).Contents (Elt Ideal))
    = Cert.ReferenceIdeal.Read.val_main_v37 (F := Ideal) (a1 m c) :=
  (W4_of_ne m ρ c main_v26 (by decide)).trans (entry_v26 m ρ c)

/-- Region 1's sums are the reference's cloth-half sums. -/
theorem sum_cloth (c : Dev nD) : (W5 m ρ c (Proc.devRef .tc main_v34_0) : (⟨S64x2048, .f32⟩ : BufTy).Contents (Elt Ideal))
    = Cert.ReferenceIdeal.Read.val_main_v43 (F := Ideal) (a0 m c) (a1 m c) :=
  calc (W5 m ρ c (Proc.devRef .tc main_v34_0) : (⟨S64x2048, .f32⟩ : BufTy).Contents (Elt Ideal))
    _ = (dat1 (V4 m ρ) c).arrAt 2 cfg1.N := W5_arr m ρ c 2
    _ = rowSum (V4 m ρ c main_v16) (V4 m ρ c main_v26) := Region1.final_sum (V4 m ρ) c
    _ = rowSum (Cert.ReferenceIdeal.Read.val_main_v16 (F := Ideal) (a0 m c)) (Cert.ReferenceIdeal.Read.val_main_v37 (F := Ideal) (a1 m c)) :=
        congrArg₂ rowSum (entry1_v16 m ρ c) (entry1_v26 m ρ c)
    _ = _ := (Cert.ReferenceIdeal.Pooled.sum_cloth _ _).symm

/-- Region 1's maxima are the reference's cloth-half maxima. -/
theorem max_cloth (c : Dev nD) : (W5 m ρ c (Proc.devRef .tc main_v34_1) : (⟨S64x2048, .f32⟩ : BufTy).Contents (Elt Ideal))
    = Cert.ReferenceIdeal.Read.val_main_v47 (F := Ideal) (a0 m c) (a1 m c) :=
  calc (W5 m ρ c (Proc.devRef .tc main_v34_1) : (⟨S64x2048, .f32⟩ : BufTy).Contents (Elt Ideal))
    _ = (dat1 (V4 m ρ) c).arrAt 3 cfg1.N := W5_arr m ρ c 3
    _ = rowMax (V4 m ρ c main_v16) (V4 m ρ c main_v26) := Region1.final_max (V4 m ρ) c
    _ = rowMax (Cert.ReferenceIdeal.Read.val_main_v16 (F := Ideal) (a0 m c)) (Cert.ReferenceIdeal.Read.val_main_v37 (F := Ideal) (a1 m c)) :=
        congrArg₂ rowMax (entry1_v16 m ρ c) (entry1_v26 m ρ c)
    _ = _ := (Cert.ReferenceIdeal.Pooled.max_cloth _ _).symm

/-- The two clamped counts pass through both regions. -/
theorem cnt_id (c : Dev nD) : (W5 m ρ c (Proc.devRef .tc main_v29) : (⟨S64x1, .f32⟩ : BufTy).Contents (Elt Ideal))
    = Cert.ReferenceIdeal.Read.val_main_v28 (F := Ideal) (a1 m c) :=
  (W5_of_ne m ρ c main_v29 (by decide)).trans ((W4_of_ne m ρ c main_v29 (by decide)).trans (entry_v29 m ρ c))
theorem cnt_cloth (c : Dev nD) : (W5 m ρ c (Proc.devRef .tc main_v32) : (⟨S64x1, .f32⟩ : BufTy).Contents (Elt Ideal))
    = Cert.ReferenceIdeal.Read.val_main_v40 (F := Ideal) (a1 m c) :=
  (W5_of_ne m ρ c main_v32 (by decide)).trans ((W4_of_ne m ρ c main_v32 (by decide)).trans (entry_v32 m ρ c))

/-! ## The results -/

/-- The identity features: maxima joined with sums over counts, the reference's first result. -/
theorem result0 (c : Dev nD) : (W6 m ρ c (Proc.devRef .tc main_v39) : (⟨S64x4096, .f32⟩ : BufTy).Contents (Elt Ideal))
    = Cert.ReferenceIdeal.Read.val_main_v36 (F := Ideal) (a0 m c) (a1 m c) := by
  have h1 := max_id m ρ c
  have h2 := sum_id m ρ c
  have h3 := cnt_id m ρ c
  show StableHlo.after hostOps2 (W5 m ρ c) (Proc.devRef .tc main_v39) = _
  after_results_simp
  unfold Cert.ReferenceIdeal.Read.val_main_v36
  refine congrArg₂ (fun (a b : (⟨S64x2048, .f32⟩ : BufTy).Contents (Elt Ideal)) =>
    concatenate S64x4096 1 [⟨S64x2048, a⟩, ⟨S64x2048, b⟩] concatenates_S64x2048_S64x2048_S64x4096_d1) ?_ ?_
  · after_results_simp
    exact h1
  · after_results_simp
    rw [h2, h3]
    rfl

/-- The cloth features, the reference's second result. -/
theorem result1 (c : Dev nD) : (W6 m ρ c (Proc.devRef .tc main_v40) : (⟨S64x4096, .f32⟩ : BufTy).Contents (Elt Ideal))
    = Cert.ReferenceIdeal.Read.val_main_v48 (F := Ideal) (a0 m c) (a1 m c) := by
  have h1 := max_cloth m ρ c
  have h2 := sum_cloth m ρ c
  have h3 := cnt_cloth m ρ c
  show StableHlo.after hostOps2 (W5 m ρ c) (Proc.devRef .tc main_v40) = _
  after_results_simp
  unfold Cert.ReferenceIdeal.Read.val_main_v48
  refine congrArg₂ (fun (a b : (⟨S64x2048, .f32⟩ : BufTy).Contents (Elt Ideal)) =>
    concatenate S64x4096 1 [⟨S64x2048, a⟩, ⟨S64x2048, b⟩] concatenates_S64x2048_S64x2048_S64x4096_d1) ?_ ?_
  · after_results_simp
    exact h1
  · after_results_simp
    rw [h2, h3]
    rfl

end Cert.KernelIdeal.Tail

end
-- ==== Proof.lean ====
/-
  The masked max-and-mean pooling kernel and its reference compute the same two feature arrays over the extended reals.

  Both programs turn an integer label mask [32, 384, 192], doubled along the batch, into a per-position cloth mask: a
  position is cloth when at least half of its 16 × 16 patch carries label 2 or 3. The identity mask is its complement;
  the cloth mask falls back to all positions where a batch entry has no cloth position at all. The input
  [64, 4096, 24, 12] is flattened to [64, 4096, 288] and cut into an identity half and a cloth half of 2048 channels, and
  each half is pooled over its 288 positions under its mask: the masked maximum (from -∞) and the masked mean, the masked
  sum over the mask's count clamped below by 1. Per half the two [64, 2048] arrays are joined along the channels.

  The reference pools on the host. The kernel program computes the masks, their float images and the counts on the host
  in the same operations, then pools each half in a pipelined region over a 2 × 16 grid of [32, 128, 288] blocks: the sum
  as the lane sum of entry times float mask, the maximum as the lane maximum of the entries whose float mask exceeds one
  half. A mask's float image is 0 or 1, so "exceeds one half" is "the bit is set": at the extended reals a block of the
  kernel's sums and maxima is a block of the reference's, the blocks tile the arrays, and the closing divisions and
  joins act on equal operands.

    * The frames of the two kernel programs are the generated frame certificates; the reference's frame is its run with
      the results dropped.
    * The idealized kernel program is the printed program read at the extended reals: nothing was rewritten.
    * The results agree array by array (`algebraic`): both runs end at the reference's composed term of the arguments.
  No step uses that the inputs are finite: every law used (sums re-indexed over the same lanes, a maximum folded over
  the same lanes, 0 + x = x) holds on all extended reals.
-/
import proofs.«135312_j41695542510189_1_alg».proof.Defs
import proofs.«135312_j41695542510189_1_alg».proof.Proof.Gen.Kernel
import proofs.«135312_j41695542510189_1_alg».proof.Proof.Gen.Kernel.Skeleton
import proofs.«135312_j41695542510189_1_alg».proof.Proof.Gen.Kernel.Launch
import proofs.«135312_j41695542510189_1_alg».proof.Proof.Gen.Kernel.Points
import proofs.«135312_j41695542510189_1_alg».proof.Proof.Gen.Kernel.Frame
import proofs.«135312_j41695542510189_1_alg».proof.Proof.Gen.KernelIdeal
import proofs.«135312_j41695542510189_1_alg».proof.Proof.Gen.KernelIdeal.Skeleton
import proofs.«135312_j41695542510189_1_alg».proof.Proof.Gen.KernelIdeal.Launch
import proofs.«135312_j41695542510189_1_alg».proof.Proof.Gen.KernelIdeal.Points
import proofs.«135312_j41695542510189_1_alg».proof.Proof.Gen.KernelIdeal.Frame
import proofs.«135312_j41695542510189_1_alg».proof.Proof.Gen.ReferenceIdeal
import proofs.«135312_j41695542510189_1_alg».proof.Proof.RefRun
import proofs.«135312_j41695542510189_1_alg».proof.Proof.RefRead
import proofs.«135312_j41695542510189_1_alg».proof.Proof.RefResults
import proofs.«135312_j41695542510189_1_alg».proof.Proof.Gen.Pre_finite_inputs
import proofs.«135312_j41695542510189_1_alg».proof.Proof.KRun
import proofs.«135312_j41695542510189_1_alg».proof.Proof.KTail
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run, the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Results.run_values (F := Ideal) m ρ)

/-- The idealization rewrote no operation. -/
theorem preserves : Cert.preserves_Kernel_KernelIdeal := trivial

/-- From memories that agree on the arguments both programs end with each result at the reference's composed term of the
    arguments: the kernel program by its run read back through the two pooling regions and the closing host operations,
    the reference by its run. -/
theorem algebraic : Cert.algebraic_KernelIdeal_ReferenceIdeal := by
  intro m ρ m' ρ' _ hagree
  refine ⟨fun c => Cert.ReferenceIdeal.Read.val_main_v36 (F := Ideal) (Cert.KernelIdeal.Entry.a0 m c) (Cert.KernelIdeal.Entry.a1 m c),
    fun c => Cert.ReferenceIdeal.Read.val_main_v48 (F := Ideal) (Cert.KernelIdeal.Entry.a0 m c) (Cert.KernelIdeal.Entry.a1 m c), ?_, ?_⟩
  · exact (θ_run Cert.KernelIdeal.defs _ _).mono
      (fun _ h c => ⟨(h c).1.trans (Cert.KernelIdeal.Tail.result0 m ρ c), (h c).2.1.trans (Cert.KernelIdeal.Tail.result1 m ρ c),
        (h c).2.2.1, (h c).2.2.2⟩)
      (Cert.KernelIdeal.Results.run_results (F := Ideal) m ρ)
  · refine (θ_run Cert.ReferenceIdeal.defs _ _).mono (fun _ h c => ⟨(h c).1.trans ?_, (h c).2.1.trans ?_, (h c).2.2.1, (h c).2.2.2⟩)
      (Cert.ReferenceIdeal.Results.run_values (F := Ideal) m' ρ')
    · rw [(hagree c).1, (hagree c).2]
    · rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
